-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S16384x4096 : Shape := ⟨2, ![16384, 4096]⟩
abbrev S16384 : Shape := ⟨1, ![16384]⟩
abbrev S256 : Shape := ⟨1, ![256]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S16384 : S_.BroadcastsInDim S16384 (![] : Fin 0 → Fin S16384.rank)
  reducesTo_S16384_S_d0 : S16384.ReducesTo [0] S_
  bcast_S_S256 : S_.BroadcastsInDim S256 (![] : Fin 0 → Fin S256.rank)
  reducesTo_S256_S_d0 : S256.ReducesTo [0] S_

variable [Facts]

def fn_part1 {F : FTy → Type} [FloatOps F] (main_v13 : IVec S_ 1) (main_v16 : IVec S16384 1) : IVec S_ 1 :=
  let main_c_5 : IVec S_ 1 := constantI S_ 1 1#1
  let main_v17 : IVec S_ 1 := (fun x v => Host.reduce IntOp.andi x v reducesTo_S16384_S_d0 h_S_) main_v16 main_c_5
  let main_v18 : IVec S_ 1 := andi main_v13 main_v17
  main_v18

def fn {F : FTy → Type} [FloatOps F] (main_arg0 : FVec F S4x2048x4096 .f32) (main_arg1 : IVec S16384x4096 32) (main_arg2 : FVec F S16384 .f32) (main_arg3 : FVec F S256 .f32) (main_arg4 : FVec F S16384 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S16384 .f32 := Host.absf main_arg2
  let main_cst_0 : FVec F S_ .f32 := constant S_ .f32 0x7F800000#32
  let main_v5 : FVec F S16384 .f32 := broadcastInDim S16384 ![] bcast_S_S16384 main_cst_0
  let main_v6 : IVec S16384 1 := cmpf .olt main_v4 main_v5
  let main_c_1 : IVec S_ 1 := constantI S_ 1 1#1
  let main_v7 : IVec S_ 1 := (fun x v => Host.reduce IntOp.andi x v reducesTo_S16384_S_d0 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S16384 .f32 := Host.absf main_arg4
  let main_cst_4 : FVec F S_ .f32 := constant S_ .f32 0x7F800000#32
  let main_v15 : FVec F S16384 .f32 := broadcastInDim S16384 ![] bcast_S_S16384 main_cst_4
  let main_v16 : IVec S16384 1 := cmpf .olt main_v14 main_v15
  fn_part1 (F := F) main_v13 main_v16
-- ==== Kernel.lean ====
abbrev S4x2048x4096 : Shape := ⟨3, ![4, 2048, 4096]⟩
abbrev S16384x4096 : Shape := ⟨2, ![16384, 4096]⟩
abbrev S16384 : Shape := ⟨1, ![16384]⟩
abbrev S256 : Shape := ⟨1, ![256]⟩
abbrev S_ : Shape := ⟨0, ![]⟩
abbrev S16384x4096x1 : Shape := ⟨3, ![16384, 4096, 1]⟩
abbrev S16384x1 : Shape := ⟨2, ![16384, 1]⟩
abbrev S8192x4096 : Shape := ⟨2, ![8192, 4096]⟩
abbrev S1x16384 : Shape := ⟨2, ![1, 16384]⟩
abbrev S8192x16384 : Shape := ⟨2, ![8192, 16384]⟩
abbrev S512x4096 : Shape := ⟨2, ![512, 4096]⟩
abbrev S1024x4096 : Shape := ⟨2, ![1024, 4096]⟩
abbrev S1x1024 : Shape := ⟨2, ![1, 1024]⟩
abbrev S512x1024 : Shape := ⟨2, ![512, 1024]⟩
abbrev S4x2048x16384 : Shape := ⟨3, ![4, 2048, 16384]⟩

abbrev nBuf : Space → Nat
  | .hbm => 23
  | .vmem => 8
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S256, .f32⟩
  | .hbm, ⟨4, _⟩ => ⟨S16384, .f32⟩
  | .hbm, ⟨5, _⟩ => ⟨S_, .i32⟩
  | .hbm, ⟨6, _⟩ => ⟨S16384x4096, .i32⟩
  | .hbm, ⟨7, _⟩ => ⟨S16384x4096, .i1⟩
  | .hbm, ⟨8, _⟩ => ⟨S_, .i32⟩
  | .hbm, ⟨9, _⟩ => ⟨S16384x4096, .i32⟩
  | .hbm, ⟨10, _⟩ => ⟨S16384x4096, .i32⟩
  | .hbm, ⟨11, _⟩ => ⟨S16384x4096, .i32⟩
  | .hbm, ⟨12, _⟩ => ⟨S16384x4096x1, .i32⟩
  | .hbm, ⟨13, _⟩ => ⟨S16384x4096, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S16384x4096, .bf16⟩
  | .hbm, ⟨18, _⟩ => ⟨S8192x4096, .f32⟩
  | .hbm, ⟨19, _⟩ => ⟨S8192x4096, .bf16⟩
  | .hbm, ⟨20, _⟩ => ⟨S1x16384, .f32⟩
  | .hbm, ⟨21, _⟩ => ⟨S8192x16384, .f32⟩
  | .hbm, ⟨22, _⟩ => ⟨S4x2048x16384, .f32⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S_S16384x4096 : S_.BroadcastsInDim S16384x4096 (![] : Fin 0 → Fin S16384x4096.rank)
  bcast_S16384x4096_S16384x4096x1_0_1 : S16384x4096.BroadcastsInDim S16384x4096x1 (![0, 1] : Fin 2 → Fin S16384x4096x1.rank)
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bitsLt_bf16_f32 : FTy.bits .bf16 < FTy.bits .f32
  shapeCasts_S4x2048x4096_S8192x4096 : S4x2048x4096.ShapeCasts S8192x4096
  shapeCasts_S16384_S1x16384 : S16384.ShapeCasts S1x16384
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S1024x4096_S1024x4096_0_0 : ∀ a, (![0, 0] : Fin 2 → Nat) a + S1024x4096.size a ≤ S1024x4096.size a
  h_S1024x4096 : 0 < S1024x4096.numel
  shapeCasts_S1024x4096_S1024x4096 : S1024x4096.ShapeCasts S1024x4096
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  inb_S512x1024_S512x1024_0_0 : ∀ a, (![0, 0] : Fin 2 → Nat) a + S512x1024.size a ≤ S512x1024.size a
  h_S512x1024 : 0 < S512x1024.numel
  shapeCasts_S8192x16384_S4x2048x16384 : S8192x16384.ShapeCasts S4x2048x16384
  gather_S256_S16384x4096x1_S16384x4096_n_0_n_n_0_2_1_wf : GatherDims.WF S256 S16384x4096x1 S16384x4096 [] [0] [] [0] [] 2 ![1]
  dot_S512x4096_S1024x4096_S512x1024_1_1_0_0_n_n_wf : DotDims.WF S512x4096 S1024x4096 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .bf16 = 32 ∨ (Rect.block (s := S8192x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x4096.size a ≤ S16384x4096.size a
  hwx0_1 : ∀ i : grid0.Coords, EltTy.bits .bf16 = 32 ∨ (Rect.block (s := S16384x4096) S1024x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x16384.size a
  hwx0_2 : ∀ i : grid0.Coords, EltTy.bits .f32 = 32 ∨ (Rect.block (s := S1x16384) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S8192x16384.size a
  hwx0_3 : ∀ i : grid0.Coords, EltTy.bits .f32 = 32 ∨ (Rect.block (s := S8192x16384) S512x1024.size (cc0_transform_3 i) (hinb0_3 i)).WholeWords (EltTy.packing .f32)

variable [Facts₀]

def gather_S256_S16384x4096x1_S16384x4096_n_0_n_n_0_2_1 : GatherDims S256 S16384x4096x1 S16384x4096 where
  offsetDims := []
  collapsedSliceDims := [0]
  operandBatchingDims := []
  startIndicesBatchingDims := []
  startIndexMap := [0]
  indexVectorDim := 2
  sliceSizes := ![1]
  wf := gather_S256_S16384x4096x1_S16384x4096_n_0_n_n_0_2_1_wf
def dot_S512x4096_S1024x4096_S512x1024_1_1_0_0_n_n : DotDims S512x4096 S1024x4096 S512x1024 where
  lhsContracting := [1]
  rhsContracting := [1]
  lhsNonContracting := [0]
  rhsNonContracting := [0]
  lhsBatch := []
  rhsBatch := []
  wf := dot_S512x4096_S1024x4096_S512x1024_1_1_0_0_n_n_wf

abbrev win0_0 : Pipeline.Window sig grid0 :=
  Pipeline.Window.ofSpec (Memref.whole main_v12) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S1024x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v13) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S512x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S4x2048x4096 : Shape := ⟨3, ![4, 2048, 4096]⟩
abbrev S16384x4096 : Shape := ⟨2, ![16384, 4096]⟩
abbrev S16384 : Shape := ⟨1, ![16384]⟩
abbrev S256 : Shape := ⟨1, ![256]⟩
abbrev S67108864 : Shape := ⟨1, ![67108864]⟩
abbrev S_ : Shape := ⟨0, ![]⟩
abbrev S67108864x1 : Shape := ⟨2, ![67108864, 1]⟩
abbrev S16384x1 : Shape := ⟨2, ![16384, 1]⟩
abbrev S4x2048x16384 : Shape := ⟨3, ![4, 2048, 16384]⟩
abbrev S1x1x16384 : Shape := ⟨3, ![1, 1, 16384]⟩

abbrev nBuf : Space → Nat
  | .hbm => 23
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S16384x4096, .i32⟩
  | .hbm, ⟨2, _⟩ => ⟨S16384, .f32⟩
  | .hbm, ⟨3, _⟩ => ⟨S256, .f32⟩
  | .hbm, ⟨4, _⟩ => ⟨S16384, .f32⟩
  | .hbm, ⟨5, _⟩ => ⟨S67108864, .i32⟩
  | .hbm, ⟨6, _⟩ => ⟨S_, .i32⟩
  | .hbm, ⟨7, _⟩ => ⟨S67108864, .i32⟩
  | .hbm, ⟨8, _⟩ => ⟨S67108864, .i1⟩
  | .hbm, ⟨9, _⟩ => ⟨S_, .i32⟩
  | .hbm, ⟨10, _⟩ => ⟨S67108864, .i32⟩
  | .hbm, ⟨11, _⟩ => ⟨S67108864, .i32⟩
  | .hbm, ⟨12, _⟩ => ⟨S67108864, .i32⟩
  | .hbm, ⟨13, _⟩ => ⟨S67108864x1, .i32⟩
  | .hbm, ⟨14, _⟩ => ⟨S67108864, .f32⟩
  | .hbm, ⟨15, _⟩ => ⟨S16384x4096, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S4x2048x16384, .f32⟩
  | .hbm, ⟨20, _⟩ => ⟨S1x1x16384, .f32⟩
  | .hbm, ⟨21, _⟩ => ⟨S4x2048x16384, .f32⟩
  | .hbm, ⟨22, _⟩ => ⟨S4x2048x16384, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]

class Facts₀ : Prop where
  shapeCasts_S16384x4096_S67108864 : S16384x4096.ShapeCasts S67108864
  bcast_S_S67108864 : S_.BroadcastsInDim S67108864 (![] : Fin 0 → Fin S67108864.rank)
  bcast_S67108864_S67108864x1_0 : S67108864.BroadcastsInDim S67108864x1 (![0] : Fin 1 → Fin S67108864x1.rank)
  shapeCasts_S67108864_S16384x4096 : S67108864.ShapeCasts S16384x4096
  bcast_S16384_S16384x1_0 : S16384.BroadcastsInDim S16384x1 (![0] : Fin 1 → Fin S16384x1.rank)
  bcast_S16384x1_S16384x4096_0_1 : S16384x1.BroadcastsInDim S16384x4096 (![0, 1] : Fin 2 → Fin S16384x4096.rank)
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  gather_S256_S67108864x1_S67108864_n_0_n_n_0_1_1_wf : GatherDims.WF S256 S67108864x1 S67108864 [] [0] [] [0] [] 1 ![1]
  dot_S4x2048x4096_S16384x4096_S4x2048x16384_2_1_01_0_n_n_wf : DotDims.WF S4x2048x4096 S16384x4096 S4x2048x16384 [2] [1] [0, 1] [0] [] []

variable [Facts₀]

def gather_S256_S67108864x1_S67108864_n_0_n_n_0_1_1 : GatherDims S256 S67108864x1 S67108864 where
  offsetDims := []
  collapsedSliceDims := [0]
  operandBatchingDims := []
  startIndicesBatchingDims := []
  startIndexMap := [0]
  indexVectorDim := 1
  sliceSizes := ![1]
  wf := gather_S256_S67108864x1_S67108864_n_0_n_n_0_1_1_wf
def dot_S4x2048x4096_S16384x4096_S4x2048x16384_2_1_01_0_n_n : DotDims S4x2048x4096 S16384x4096 S4x2048x16384 where
  lhsContracting := [2]
  rhsContracting := [1]
  lhsNonContracting := [0, 1]
  rhsNonContracting := [0]
  lhsBatch := []
  rhsBatch := []
  wf := dot_S4x2048x4096_S16384x4096_S4x2048x16384_2_1_01_0_n_n_wf

class Facts : Prop extends Facts₀ where

variable [Facts]
-- ==== Proof.QuantLinear.lean ====
/-
  The function both programs compute, stated once over the argument arrays, index by index.

  A weight entry is stored as an index word into a 256-entry codebook, one scale per output row:
  the dequantised weight is  w[o, k] = code[q[o, k]] · absmax[o],  where the index word is read the
  way jnp reads it (a negative index counts from the table's end; the start index is then read signed
  and clamped into the table).  The layer is  out[b, s, o] = (Σ_k x[b, s, k] · w[o, k]) + bias[o].
  The kernel computes it over the activations flattened to 8192 rows (row r = (r / 2048, r % 2048)),
  so the flat form is stated too, with the one fact that joins them: the flat array at row
  b · 2048 + s is the result at (b, s).
-/
import Idealize.ShloMosaic.PureOps.Ideal
import Idealize.ShloMosaic.Lib.ValueIdx

noncomputable section

namespace Cert.QuantLinear

open Idealize.ShloMosaic Idealize.ShloMosaic.ValueIdx

/-- jnp's normalisation of an index into a table of 256 entries: a negative index counts from the end. -/
def wrapIdx (q : BitVec 32) : BitVec 32 :=
  Scalar.select (IntOp.cmpi .slt q 0#32) (IntOp.addi q 256#32) q

/-- The codebook entry an index word names: normalised, read signed, clamped into `[0, 255]`. -/
def lookup {α : Type} (code : (⟨1, ![256]⟩ : Shape).Idx → α) (q : BitVec 32) : α :=
  code (ix1 ⟨min (wrapIdx q).toInt.toNat (256 - 1), by omega⟩)

/-- The dequantised weight: the codebook entry of the stored index, scaled by its row's `absmax`. -/
def weight (wq : IVec ⟨2, ![16384, 4096]⟩ 32) (absmax : FVec Ideal ⟨1, ![16384]⟩ .f32) (code : FVec Ideal ⟨1, ![256]⟩ .f32) :
    FVec Ideal ⟨2, ![16384, 4096]⟩ .f32 :=
  fun j => lookup code (wq j) * absmax (ix1 (j 0))

/-- The activations as 8192 rows: row `r` is the token `(r / 2048, r % 2048)`. -/
def rows (x : FVec Ideal ⟨3, ![4, 2048, 4096]⟩ .f32) : FVec Ideal ⟨2, ![8192, 4096]⟩ .f32 :=
  fun j => x (ix3 ⟨(j 0).val / 2048, by have := idx2_lt0 j; omega⟩ ⟨(j 0).val % 2048, Nat.mod_lt _ (by decide)⟩ (j 1))

/-- The layer over the flattened rows. -/
def flat (x : FVec Ideal ⟨3, ![4, 2048, 4096]⟩ .f32) (wq : IVec ⟨2, ![16384, 4096]⟩ 32) (absmax : FVec Ideal ⟨1, ![16384]⟩ .f32)
    (code : FVec Ideal ⟨1, ![256]⟩ .f32) (bias : FVec Ideal ⟨1, ![16384]⟩ .f32) : FVec Ideal ⟨2, ![8192, 16384]⟩ .f32 :=
  fun j => (∑ k : Fin 4096, rows x (ix2 (j 0) k) * weight wq absmax code (ix2 (j 1) k)) + bias (ix1 (j 1))

/-- The layer: `out[b, s, o] = (Σ_k x[b, s, k] · w[o, k]) + bias[o]`. -/
def out (x : FVec Ideal ⟨3, ![4, 2048, 4096]⟩ .f32) (wq : IVec ⟨2, ![16384, 4096]⟩ 32) (absmax : FVec Ideal ⟨1, ![16384]⟩ .f32)
    (code : FVec Ideal ⟨1, ![256]⟩ .f32) (bias : FVec Ideal ⟨1, ![16384]⟩ .f32) : FVec Ideal ⟨3, ![4, 2048, 16384]⟩ .f32 :=
  fun i => (∑ k : Fin 4096, x (ix3 (i 0) (i 1) k) * weight wq absmax code (ix2 (i 2) k)) + bias (ix1 (i 2))

/-- The flat layer at row `b · 2048 + s` is the layer at `(b, s)`. -/
theorem flat_eq_out (x : FVec Ideal ⟨3, ![4, 2048, 4096]⟩ .f32) (wq : IVec ⟨2, ![16384, 4096]⟩ 32) (absmax : FVec Ideal ⟨1, ![16384]⟩ .f32)
    (code : FVec Ideal ⟨1, ![256]⟩ .f32) (bias : FVec Ideal ⟨1, ![16384]⟩ .f32)
    (i : (⟨3, ![4, 2048, 16384]⟩ : Shape).Idx) (j : (⟨2, ![8192, 16384]⟩ : Shape).Idx)
    (h0 : (j 0).val = (i 0).val * 2048 + (i 1).val) (h1 : (j 1).val = (i 2).val) :
    flat x wq absmax code bias j = out x wq absmax code bias i := by
  have e1 : j 1 = i 2 := Fin.ext h1
  have hi1 : (i 1).val < 2048 := (i 1).isLt
  unfold flat out rows
  rw [e1]
  congr 1
  refine Finset.sum_congr rfl fun k _ => ?_
  congr 2
  funext a
  match a with
  | ⟨0, _⟩ => exact Fin.ext (by show (j 0).val / 2048 = (i 0).val; omega)
  | ⟨1, _⟩ => exact Fin.ext (by show (j 0).val % 2048 = (i 1).val; omega)
  | ⟨2, _⟩ => rfl

end Cert.QuantLinear

end
-- ==== Proof.RefValue.lean ====
/-
  The reference, read index by index, is the layer `QuantLinear.out` of its arguments.

  The reference flattens the index array to 67108864 words, normalises each (a negative index counts
  from the end), takes the codebook entry it names, lays the entries back out as [16384, 4096] (position
  o · 4096 + k is entry (o, k)), scales row o by absmax[o], contracts the activations' last axis with the
  weight's last axis and adds bias[o] along the last axis.
-/
import proofs.«133222_j14293651161610_1_alg».proof.Proof.Gen.ReferenceIdeal.Read
import proofs.«133222_j14293651161610_1_alg».proof.Proof.QuantLinear
import Idealize.ShloMosaic.Lib.StableHlo.Predicate

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx Idealize.ShloMosaic.StableHlo.Predicate
open Cert.QuantLinear

/-- Position `o · 4096 + k` of the flattened arrays. -/
abbrev pos (j : S16384x4096.Idx) : Fin 67108864 :=
  ⟨(j 0).val * 4096 + (j 1).val, by have h0 : (j 0).val < 16384 := (j 0).isLt; have h1 : (j 1).val < 4096 := (j 1).isLt; omega⟩

/-- The start-index column at position `o · 4096 + k` holds the normalised index word of entry `(o, k)`. -/
theorem start_apply (x1 : (⟨S16384x4096, .i32⟩ : BufTy).Contents (Elt Ideal)) (j : S16384x4096.Idx) :
    val_main_v6 (F := Ideal) x1 (ixP (pos j)) = wrapIdx (x1 j) := by
  have hj : idx_main_v0 (idx_main_v6 (ixP (pos j))) = j := by
    have h1 : (j 1).val < 4096 := (j 1).isLt
    funext a
    match a with
    | ⟨0, _⟩ => exact Fin.ext (by show ((j 0).val * 4096 + (j 1).val) / 4096 = (j 0).val; omega)
    | ⟨1, _⟩ => exact Fin.ext (by show ((j 0).val * 4096 + (j 1).val) % 4096 = (j 1).val; omega)
  rw [val_main_v6_apply, val_main_v5_apply, val_main_v2_apply, val_main_v4_apply, val_main_v0_apply, val_main_v1_apply,
    val_main_v3_apply, val_main_c_apply, val_main_c_0_apply, hj]
  rfl

/-- The gathered entries, laid back out: entry `(o, k)` is the codebook entry its index word names. -/
theorem gathered_apply (x1 : (⟨S16384x4096, .i32⟩ : BufTy).Contents (Elt Ideal)) (x3 : (⟨S256, .f32⟩ : BufTy).Contents (Elt Ideal))
    (j : S16384x4096.Idx) : val_main_v8 (F := Ideal) x1 x3 j = lookup x3 (x1 j) := by
  have hp : idx_main_v8 j = Shape.Idx.ofFin (pos j) := by
    funext a
    match a with
    | ⟨0, _⟩ => rfl
  rw [val_main_v8_apply]
  unfold val_main_v7
  rw [hp, gather_take gather_S256_S67108864x1_S67108864_n_0_n_n_0_1_1 rfl rfl rfl rfl x3 _ (pos j) (by decide)]
  unfold lookup
  congr 1
  funext a
  match a with
  | ⟨0, _⟩ =>
    apply Fin.ext
    show min (val_main_v6 (F := Ideal) x1 (ixP (pos j))).toInt.toNat (256 - 1) = min (wrapIdx (x1 j)).toInt.toNat (256 - 1)
    rw [start_apply]

/-- The reference's weight is the dequantised weight. -/
theorem weight_apply (x1 : (⟨S16384x4096, .i32⟩ : BufTy).Contents (Elt Ideal)) (x2 : (⟨S16384, .f32⟩ : BufTy).Contents (Elt Ideal))
    (x3 : (⟨S256, .f32⟩ : BufTy).Contents (Elt Ideal)) (j : S16384x4096.Idx) :
    val_main_v11 (F := Ideal) x1 x2 x3 j = weight x1 x2 x3 j := by
  have hs : idx_main_v9 (idx_main_v10 j) = ix1 (j 0) := by
    funext a
    match a with
    | ⟨0, _⟩ => rfl
  rw [val_main_v11_apply, gathered_apply, val_main_v10_apply, val_main_v9_apply, hs]
  rfl

/-- The reference's result is the layer of its arguments. -/
theorem result_eq (x0 : (⟨S4x2048x4096, .f32⟩ : BufTy).Contents (Elt Ideal)) (x1 : (⟨S16384x4096, .i32⟩ : BufTy).Contents (Elt Ideal))
    (x2 : (⟨S16384, .f32⟩ : BufTy).Contents (Elt Ideal)) (x3 : (⟨S256, .f32⟩ : BufTy).Contents (Elt Ideal))
    (x4 : (⟨S16384, .f32⟩ : BufTy).Contents (Elt Ideal)) :
    val_main_v15 (F := Ideal) x0 x1 x2 x3 x4 = out x0 x1 x2 x3 x4 := by
  funext i
  have hb : idx_main_v13 (idx_main_v14 i) = ix1 (i 2) := by
    funext a
    match a with
    | ⟨0, _⟩ => rfl
  have hl : ∀ k : Fin 4096, lidx_main_v12 i k = ix3 (i 0) (i 1) k := fun k => by
    funext a
    match a with
    | ⟨0, _⟩ => rfl
    | ⟨1, _⟩ => rfl
    | ⟨2, _⟩ => rfl
  have hr : ∀ k : Fin 4096, ridx_main_v12 i k = ix2 (i 2) k := fun k => by
    funext a
    match a with
    | ⟨0, _⟩ => rfl
    | ⟨1, _⟩ => rfl
  rw [val_main_v15_apply, val_main_v12_apply, val_main_v14_apply, val_main_v13_apply, hb]
  unfold out
  show (∑ k : Fin 4096, _) + _ = (∑ k : Fin 4096, _) + _
  congr 1
  refine Finset.sum_congr rfl fun k _ => ?_
  rw [weight_apply, hl, hr]
  rfl

end Cert.ReferenceIdeal.RefValue

end
-- ==== Proof.KernelHost.lean ====
/-
  What the kernel's region finds in its three operand arrays, as functions of the argument arrays.

  Before the region the program flattens the activations to 8192 rows, dequantises the weight — each
  stored index word normalised (a negative index counts from the end), its codebook entry taken, the
  entry scaled by its row's absmax — and lays the bias out as one row of 16384.  Read index by index over
  the extended reals (where narrowing to bf16 is the identity) these are `QuantLinear.rows`,
  `QuantLinear.weight` and the bias at its column.
-/
import proofs.«133222_j14293651161610_1_alg».proof.Proof.Gen.KernelIdeal.Frame
import proofs.«133222_j14293651161610_1_alg».proof.Proof.QuantLinear
import Idealize.ShloMosaic.Lib.StableHlo.Run
import Idealize.ShloMosaic.Lib.Pipeline.Value
import Idealize.ShloMosaic.Lib.ValueIdx

noncomputable section

namespace Cert.KernelIdeal.HostValue

open Cert.KernelIdeal Cert.KernelIdeal.Gen
open Idealize.ShloMosaic Idealize.ShloMosaic.TcCoe Idealize.SL.Sem Idealize.ShloMosaic.StableHlo Idealize.ShloMosaic.ValueIdx
open Cert.QuantLinear

variable {F : FTy → Type} [FloatOps F]

/-! ## The three operand arrays as terms of the arguments -/

/-- The activations flattened to [8192, 4096] and narrowed. -/
def xmat (x : (⟨S4x2048x4096, .f32⟩ : BufTy).Contents (Elt F)) : (⟨S8192x4096, .bf16⟩ : BufTy).Contents (Elt F) :=
  truncf .bf16 (shapeCast _ x shapeCasts_S4x2048x4096_S8192x4096) bitsLt_bf16_f32

/-- The stored index words normalised: a negative word has the table length added. -/
def wrapped (wq : (⟨S16384x4096, .i32⟩ : BufTy).Contents (Elt F)) : (⟨S16384x4096, .i32⟩ : BufTy).Contents (Elt F) :=
  select (cmpi .slt wq (broadcastInDim S16384x4096 ![] bcast_S_S16384x4096 (constantI S_ 32 0#32)))
    (addi wq (broadcastInDim S16384x4096 ![] bcast_S_S16384x4096 (constantI S_ 32 256#32))) wq

/-- The dequantised weight, narrowed: codebook entries of the normalised words, each row scaled by its absmax. -/
def wmat (wq : (⟨S16384x4096, .i32⟩ : BufTy).Contents (Elt F)) (absmax : (⟨S16384, .f32⟩ : BufTy).Contents (Elt F))
    (code : (⟨S256, .f32⟩ : BufTy).Contents (Elt F)) : (⟨S16384x4096, .bf16⟩ : BufTy).Contents (Elt F) :=
  truncf .bf16 (mulf
    (Host.gather gather_S256_S16384x4096x1_S16384x4096_n_0_n_n_0_2_1 code
      (broadcastInDim S16384x4096x1 ![0, 1] bcast_S16384x4096_S16384x4096x1_0_1 (wrapped (F := F) wq)))
    (broadcastInDim S16384x4096 ![0, 1] bcast_S16384x1_S16384x4096_0_1 (broadcastInDim S16384x1 ![0] bcast_S16384_S16384x1_0 absmax)))
    bitsLt_bf16_f32

/-- The bias as one row. -/
def brow (bias : (⟨S16384, .f32⟩ : BufTy).Contents (Elt F)) : (⟨S1x16384, .f32⟩ : BufTy).Contents (Elt F) :=
  shapeCast _ bias shapeCasts_S16384_S1x16384

variable (m : (ℓ : Loc nD τ sig) → Buf (Elt F) ℓ)

/-- The first operand's array at the region's entry. -/
theorem V_main_v12 (c : Dev nD) : V m c main_v12 = xmat (F := F) (m ((c : Thread nD τ).loc main_arg0)) := by
  show StableHlo.after hostOps0 (fun b => m (c, b)) (Proc.devRef .tc main_v12) = _
  after_results
  rfl

/-- The second operand's array at the region's entry. -/
theorem V_main_v10 (c : Dev nD) : V m c main_v10
    = wmat (F := F) (m ((c : Thread nD τ).loc main_arg1)) (m ((c : Thread nD τ).loc main_arg2)) (m ((c : Thread nD τ).loc main_arg3)) := by
  show StableHlo.after hostOps0 (fun b => m (c, b)) (Proc.devRef .tc main_v10) = _
  after_results
  rfl

/-- The third operand's array at the region's entry. -/
theorem V_main_v13 (c : Dev nD) : V m c main_v13 = brow (F := F) (m ((c : Thread nD τ).loc main_arg4)) := by
  show StableHlo.after hostOps0 (fun b => m (c, b)) (Proc.devRef .tc main_v13) = _
  after_results
  rfl

/-! ## Read at an index, over the extended reals -/

/-- Row `r` of the flattened activations is the token `(r / 2048, r % 2048)`. -/
theorem xmat_apply (x : (⟨S4x2048x4096, .f32⟩ : BufTy).Contents (Elt Ideal)) (j : S8192x4096.Idx) :
    xmat (F := Ideal) x j = rows x j := by
  have h0 : (j 0).val < 8192 := (j 0).isLt
  unfold xmat rows
  rw [truncf_apply]
  refine shapeCast_apply x shapeCasts_S4x2048x4096_S8192x4096 j _ ?_
  rewrite [Shape.rowMajor_val_three, Shape.rowMajor_val_two]
  show ((j 0).val / 2048 * 2048 + (j 0).val % 2048) * 4096 + (j 1).val = (j 0).val * 4096 + (j 1).val
  omega

/-- A splat of a word read at an entry is the word. -/
theorem splat_apply (w : BitVec 32) (j : S16384x4096.Idx) :
    (broadcastInDim S16384x4096 ![] bcast_S_S16384x4096 (constantI S_ 32 w) : IVec S16384x4096 32) j = w :=
  broadcastInDim_apply _ bcast_S_S16384x4096 (constantI S_ 32 w) j ix0 (fun a => a.elim0)

/-- The normalised word at an entry. -/
theorem wrapped_apply (wq : (⟨S16384x4096, .i32⟩ : BufTy).Contents (Elt Ideal)) (j : S16384x4096.Idx) :
    wrapped (F := Ideal) wq j = wrapIdx (wq j) := by
  unfold wrapped wrapIdx
  rw [select_apply]
  show Scalar.select (IntOp.cmpi .slt (wq j) _) (IntOp.addi (wq j) _) (wq j) = _
  rw [splat_apply, splat_apply]

/-- The narrowed weight at an entry is the dequantised weight. -/
theorem wmat_apply (wq : (⟨S16384x4096, .i32⟩ : BufTy).Contents (Elt Ideal)) (absmax : (⟨S16384, .f32⟩ : BufTy).Contents (Elt Ideal))
    (code : (⟨S256, .f32⟩ : BufTy).Contents (Elt Ideal)) (j : S16384x4096.Idx) :
    wmat (F := Ideal) wq absmax code j = weight wq absmax code j := by
  have hcol : (broadcastInDim S16384x4096x1 ![0, 1] bcast_S16384x4096_S16384x4096x1_0_1 (wrapped (F := Ideal) wq) : IVec S16384x4096x1 32) (takeIdx j)
      = wrapIdx (wq j) := by
    rw [← wrapped_apply]
    exact broadcastInDim_apply _ bcast_S16384x4096_S16384x4096x1_0_1 (wrapped (F := Ideal) wq) (takeIdx j) j (fun a => match a with
      | ⟨0, _⟩ => by show (j 0).val = if (16384 : Nat) = 1 then 0 else (j 0).val; rw [if_neg (by decide)]
      | ⟨1, _⟩ => by show (j 1).val = if (4096 : Nat) = 1 then 0 else (j 1).val; rw [if_neg (by decide)])
  have hscale : (broadcastInDim S16384x4096 ![0, 1] bcast_S16384x1_S16384x4096_0_1 (broadcastInDim S16384x1 ![0] bcast_S16384_S16384x1_0 absmax) : FVec Ideal S16384x4096 .f32) j
      = absmax (ix1 (j 0)) := by
    rw [broadcastInDim_apply _ bcast_S16384x1_S16384x4096_0_1 _ j (ix2 (j 0) (0 : Fin 1)) (fun a => match a with
      | ⟨0, _⟩ => by show (j 0).val = if (16384 : Nat) = 1 then 0 else (j 0).val; rw [if_neg (by decide)]
      | ⟨1, _⟩ => by show 0 = if (1 : Nat) = 1 then 0 else (j 1).val; rw [if_pos rfl])]
    exact broadcastInDim_apply _ bcast_S16384_S16384x1_0 absmax (ix2 (j 0) (0 : Fin 1)) (ix1 (j 0)) (fun a => match a with
      | ⟨0, _⟩ => by show (j 0).val = if (16384 : Nat) = 1 then 0 else (j 0).val; rw [if_neg (by decide)])
  unfold wmat weight lookup
  rw [truncf_apply, mulf_apply, hscale]
  show Host.gather (takeDims 256 16384 4096 gather_S256_S16384x4096x1_S16384x4096_n_0_n_n_0_2_1_wf) code _ j * _ = _
  rw [gather_take_apply (by decide)]
  congr 2
  funext a
  match a with
  | ⟨0, _⟩ =>
    apply Fin.ext
    show min (BitVec.toInt _).toNat (256 - 1) = min (wrapIdx (wq j)).toInt.toNat (256 - 1)
    rw [hcol]

/-- The bias row at column `o` is `bias[o]`. -/
theorem brow_apply (bias : (⟨S16384, .f32⟩ : BufTy).Contents (Elt Ideal)) (j : S1x16384.Idx) :
    brow (F := Ideal) bias j = bias (ix1 (j 1)) := by
  have h0 : (j 0).val < 1 := (j 0).isLt
  unfold brow
  refine shapeCast_apply bias shapeCasts_S16384_S1x16384 j _ ?_
  rewrite [Shape.rowMajor_val_one, Shape.rowMajor_val_two]
  show (j 1).val = (j 0).val * 16384 + (j 1).val
  omega

end Cert.KernelIdeal.HostValue

end
-- ==== Proof.KernelBody.lean ====
/-
  What one grid point computes, entry by entry, over the extended reals.

  The body multiplies its [512, 4096] block of activation rows with its [1024, 4096] block of weight rows,
  contracting the last axis of both into a zero accumulator, and adds its [1, 1024] block of the bias row
  along the rows: entry (p, q) of the result block is  (Σ_k a[p, k] · w[q, k]) + b[0, q].
-/
import proofs.«133222_j14293651161610_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen
open Idealize.ShloMosaic Idealize.ShloMosaic.ValueIdx

/-! ## The contraction's operand indices, coordinate by coordinate -/

theorem lhs_0 (i : S512x1024.Idx) (q : dot_S512x4096_S1024x4096_S512x1024_1_1_0_0_n_n.contr.Idx) :
    (dot_S512x4096_S1024x4096_S512x1024_1_1_0_0_n_n.lhsIdx i q 0).val = (i 0).val := by
  unfold DotDims.lhsIdx
  rw [dif_neg (show ¬(0 : Fin S512x4096.rank) ∈ dot_S512x4096_S1024x4096_S512x1024_1_1_0_0_n_n.lhsBatch by decide), dif_pos (show (0 : Fin S512x4096.rank) ∈ dot_S512x4096_S1024x4096_S512x1024_1_1_0_0_n_n.lhsNonContracting by decide)]
  rfl
theorem lhs_1 (i : S512x1024.Idx) (q : dot_S512x4096_S1024x4096_S512x1024_1_1_0_0_n_n.contr.Idx) :
    (dot_S512x4096_S1024x4096_S512x1024_1_1_0_0_n_n.lhsIdx i q 1).val = (q ⟨0, by decide⟩).val :=
  dot_S512x4096_S1024x4096_S512x1024_1_1_0_0_n_n.lhsIdx_val_of_single rfl i q
theorem rhs_0 (i : S512x1024.Idx) (q : dot_S512x4096_S1024x4096_S512x1024_1_1_0_0_n_n.contr.Idx) :
    (dot_S512x4096_S1024x4096_S512x1024_1_1_0_0_n_n.rhsIdx i q 0).val = (i 1).val := by
  unfold DotDims.rhsIdx
  rw [dif_neg (show ¬(0 : Fin S1024x4096.rank) ∈ dot_S512x4096_S1024x4096_S512x1024_1_1_0_0_n_n.rhsBatch by decide), dif_pos (show (0 : Fin S1024x4096.rank) ∈ dot_S512x4096_S1024x4096_S512x1024_1_1_0_0_n_n.rhsNonContracting by decide)]
  rfl
theorem rhs_1 (i : S512x1024.Idx) (q : dot_S512x4096_S1024x4096_S512x1024_1_1_0_0_n_n.contr.Idx) :
    (dot_S512x4096_S1024x4096_S512x1024_1_1_0_0_n_n.rhsIdx i q 1).val = (q ⟨0, by decide⟩).val :=
  dot_S512x4096_S1024x4096_S512x1024_1_1_0_0_n_n.rhsIdx_val_of_single rfl i q

/-- The product block at an entry: row `p` of the first operand against row `q` of the second, summed over the
    4096 columns. -/
theorem product_apply (a : FVec Ideal S512x4096 .bf16) (w : FVec Ideal S1024x4096 .bf16) (i : S512x1024.Idx) :
    matmul dot_S512x4096_S1024x4096_S512x1024_1_1_0_0_n_n none a w (constant S512x1024 .f32 0x00000000#32) i
      = ∑ k : Fin 4096, a (ix2 (i 0) k) * w (ix2 (i 1) k) := by
  simp only [matmul]
  rw [Ideal.matmul_constant_zero_apply, ← Equiv.sum_comp (contrEquiv1 dot_S512x4096_S1024x4096_S512x1024_1_1_0_0_n_n 4096 rfl rfl).symm]
  refine Finset.sum_congr rfl fun k _ => ?_
  have hk := contrEquiv1_symm_val dot_S512x4096_S1024x4096_S512x1024_1_1_0_0_n_n 4096 rfl rfl k
  have el : dot_S512x4096_S1024x4096_S512x1024_1_1_0_0_n_n.lhsIdx i ((contrEquiv1 dot_S512x4096_S1024x4096_S512x1024_1_1_0_0_n_n 4096 rfl rfl).symm k) = ix2 (i 0) k := funext fun a => Fin.ext (by
    match a with
    | ⟨0, _⟩ => exact lhs_0 _ _
    | ⟨1, _⟩ => exact (lhs_1 _ _).trans hk)
  have er : dot_S512x4096_S1024x4096_S512x1024_1_1_0_0_n_n.rhsIdx i ((contrEquiv1 dot_S512x4096_S1024x4096_S512x1024_1_1_0_0_n_n 4096 rfl rfl).symm k) = ix2 (i 1) k := funext fun a => Fin.ext (by
    match a with
    | ⟨0, _⟩ => exact rhs_0 _ _
    | ⟨1, _⟩ => exact (rhs_1 _ _).trans hk)
  rw [el, er]
  rfl

/-- The bias block spread along the rows: entry `(p, q)` is `b[0, q]`. -/
theorem spread_apply (b : FVec Ideal S1x1024 .f32) (i : S512x1024.Idx) :
    broadcastTo S512x1024 b broadcasts_S1x1024_S512x1024 i = b (ix2 (0 : Fin 1) (i 1)) :=
  broadcastTo_apply b broadcasts_S1x1024_S512x1024 i (ix2 (0 : Fin 1) (i 1)) (fun a => match a with
    | ⟨0, _⟩ => by show 0 = if (1 : Nat) = 1 then 0 else _; rw [if_pos rfl]
    | ⟨1, _⟩ => by show (i 1).val = if (1024 : Nat) = 1 then 0 else (i 1).val; rw [if_neg (by decide)])

/-- THE BODY'S STORE at an entry: `(Σ_k a[p, k] · w[q, k]) + b[0, q]`. -/
theorem pay_apply (a : Vec Ideal S512x4096 .bf16) (w : Vec Ideal S1024x4096 .bf16) (b : Vec Ideal S1x1024 .f32) (i : S512x1024.Idx) :
    k0_pay1 (F := Ideal) a w b i = (∑ k : Fin 4096, a (ix2 (i 0) k) * w (ix2 (i 1) k)) + b (ix2 (0 : Fin 1) (i 1)) := by
  unfold k0_pay1
  rw [addf_apply, shapeCast_self, shapeCast_self, shapeCast_self, product_apply, spread_apply]

end Cert.KernelIdeal.Body

end
-- ==== Proof.KernelArray.lean ====
/-
  The kernel's result array after the run is the layer `QuantLinear.out` of the argument arrays.

  Grid point t = (t / 16, t % 16) holds rows 512·(t / 16) … of the flattened activations, weight rows
  1024·(t % 16) … and the same columns of the bias row, and writes back block (t / 16, t % 16) of the
  [8192, 16384] result: by the body's entry formula that block is the flat layer restricted to it.  The 256
  blocks tile the result, so the array ends holding the flat layer; the closing reshape to [4, 2048, 16384]
  reads row b · 2048 + s at (b, s), which is the layer itself.
-/
import proofs.«133222_j14293651161610_1_alg».proof.Proof.Gen.KernelIdeal.Frame
import proofs.«133222_j14293651161610_1_alg».proof.Proof.QuantLinear
import proofs.«133222_j14293651161610_1_alg».proof.Proof.KernelHost
import proofs.«133222_j14293651161610_1_alg».proof.Proof.KernelBody
import Idealize.ShloMosaic.Lib.Pipeline.Value
import Idealize.ShloMosaic.Lib.StableHlo.Run
import Idealize.ShloMosaic.Lib.Tactic

set_option maxRecDepth 16384

noncomputable section

namespace Cert.KernelIdeal.ArrayValue

open Cert.KernelIdeal Cert.KernelIdeal.Gen
open Idealize.ShloMosaic Idealize.ShloMosaic.TcCoe Idealize.SL.Sem Idealize.ShloMosaic.StableHlo Idealize.ShloMosaic.ValueIdx
open Idealize.ShloMosaic.Pipeline (Dat)
open Cert.QuantLinear Cert.KernelIdeal.HostValue Cert.KernelIdeal.Body

variable (m : (ℓ : Loc nD τ sig) → Buf (Elt Ideal) ℓ) (ρ : Dev nD → PrngReg)

theorem hz : (![0, 0] : Fin 2 → Nat) = fun _ => 0 := funext fun a => by fin_cases a <;> rfl

/-- The flat layer of the arguments as launched. -/
abbrev flatOf (c : Dev nD) : S8192x16384.Idx → EReal :=
  flat (m ((c : Thread nD τ).loc main_arg0)) (m ((c : Thread nD τ).loc main_arg1)) (m ((c : Thread nD τ).loc main_arg2)) (m ((c : Thread nD τ).loc main_arg3)) (m ((c : Thread nD τ).loc main_arg4))

/-- The layer of the arguments as launched. -/
abbrev outOf (c : Dev nD) : S4x2048x16384.Idx → EReal :=
  out (m ((c : Thread nD τ).loc main_arg0)) (m ((c : Thread nD τ).loc main_arg1)) (m ((c : Thread nD τ).loc main_arg2)) (m ((c : Thread nD τ).loc main_arg3)) (m ((c : Thread nD τ).loc main_arg4))

/-! ## The index maps over the grid -/

/-- The activation window follows the result's row block, the weight and bias windows its column block; the other
    block index of each is 0. -/
theorem idx_facts : ∀ t : Fin cfg0.N,
    win0_0.index t (0 : Fin 2) = win0_3.index t (0 : Fin 2) ∧ win0_0.index t (1 : Fin 2) = 0
    ∧ win0_1.index t (0 : Fin 2) = win0_3.index t (1 : Fin 2) ∧ win0_1.index t (1 : Fin 2) = 0
    ∧ win0_2.index t (0 : Fin 2) = 0 ∧ win0_2.index t (1 : Fin 2) = win0_3.index t (1 : Fin 2) :=
  (by decide +kernel : ∀ t : Fin grid0.N, _)

/-- Every block of the 16 × 16 tiling is some point's. -/
theorem idx_onto : ∀ (q0 : Fin 16) (q1 : Fin 16), ∃ t : Fin cfg0.N, win0_3.index t = ![q0.val, q1.val] :=
  (by decide +kernel : ∀ (q0 : Fin 16) (q1 : Fin 16), ∃ t : Fin grid0.N, win0_3.index t = ![q0.val, q1.val])

/-! ## The input blocks at a point -/

/-- The activation block at point `t`: its row `p` is row `512 · (row block) + p` of the flattened activations. -/
theorem ablk_apply (c : Dev nD) (t : Fin cfg0.N) (y : S512x4096.Idx) (g : S8192x4096.Idx)
    (h0 : (g 0).val = win0_3.index t (0 : Fin 2) * 512 + (y 0).val) (h1 : (g 1).val = (y 1).val) :
    (iblk m c 0 t : Vec Ideal S512x4096 .bf16) y = rows (m ((c : Thread nD τ).loc main_arg0)) g := by
  obtain ⟨e0, e1, -⟩ := idx_facts t
  unfold iblk
  rw [View.read_apply]
  show V m c main_v12 _ = _
  rw [V_main_v12, xmat_apply]
  congr 1
  funext a
  apply Fin.ext
  match a with
  | ⟨0, _⟩ => show win0_0.index t (0 : Fin 2) * 512 + 1 * (y 0).val = (g 0).val; omega
  | ⟨1, _⟩ => show win0_0.index t (1 : Fin 2) * 4096 + 1 * (y 1).val = (g 1).val; omega

/-- The weight block at point `t`: its row `q` is row `1024 · (column block) + q` of the dequantised weight. -/
theorem wblk_apply (c : Dev nD) (t : Fin cfg0.N) (y : S1024x4096.Idx) (g : S16384x4096.Idx)
    (h0 : (g 0).val = win0_3.index t (1 : Fin 2) * 1024 + (y 0).val) (h1 : (g 1).val = (y 1).val) :
    (iblk m c 1 t : Vec Ideal S1024x4096 .bf16) y
      = weight (m ((c : Thread nD τ).loc main_arg1)) (m ((c : Thread nD τ).loc main_arg2)) (m ((c : Thread nD τ).loc main_arg3)) g := by
  obtain ⟨-, -, e2, e3, -⟩ := idx_facts t
  unfold iblk
  rw [View.read_apply]
  show V m c main_v10 _ = _
  rw [V_main_v10, wmat_apply]
  congr 1
  funext a
  apply Fin.ext
  match a with
  | ⟨0, _⟩ => show win0_1.index t (0 : Fin 2) * 1024 + 1 * (y 0).val = (g 0).val; omega
  | ⟨1, _⟩ => show win0_1.index t (1 : Fin 2) * 4096 + 1 * (y 1).val = (g 1).val; omega

/-- The bias block at point `t`: its column `q` is `bias[1024 · (column block) + q]`. -/
theorem bblk_apply (c : Dev nD) (t : Fin cfg0.N) (y : S1x1024.Idx) (o : Fin 16384)
    (h1 : o.val = win0_3.index t (1 : Fin 2) * 1024 + (y 1).val) :
    (iblk m c 2 t : Vec Ideal S1x1024 .f32) y = (m ((c : Thread nD τ).loc main_arg4) : S16384.Idx → EReal) (ix1 o) := by
  obtain ⟨-, -, -, -, e4, e5⟩ := idx_facts t
  unfold iblk
  rw [View.read_apply]
  show V m c main_v13 _ = _
  rw [V_main_v13, brow_apply]
  congr 1
  funext a
  match a with
  | ⟨0, _⟩ =>
    apply Fin.ext
    show win0_2.index t (1 : Fin 2) * 1024 + 1 * (y 1).val = o.val
    omega

/-! ## What a point writes back -/

/-- One entry of a point's result block, from its three input blocks read as rows of the flat operands: the flat layer
    at the entry's place in the array. -/
theorem entry_eq (x : FVec Ideal ⟨3, ![4, 2048, 4096]⟩ .f32) (wq : IVec ⟨2, ![16384, 4096]⟩ 32) (absmax : FVec Ideal ⟨1, ![16384]⟩ .f32)
    (code : FVec Ideal ⟨1, ![256]⟩ .f32) (bias : FVec Ideal ⟨1, ![16384]⟩ .f32)
    (a : Vec Ideal S512x4096 .bf16) (w : Vec Ideal S1024x4096 .bf16) (b : Vec Ideal S1x1024 .f32)
    (i : S512x1024.Idx) (g : S8192x16384.Idx)
    (ha : ∀ k : Fin 4096, a (ix2 (i 0) k) = rows x (ix2 (g 0) k))
    (hw : ∀ k : Fin 4096, w (ix2 (i 1) k) = weight wq absmax code (ix2 (g 1) k))
    (hb : b (ix2 (0 : Fin 1) (i 1)) = bias (ix1 (g 1))) :
    k0_pay1 (F := Ideal) a w b i = flat x wq absmax code bias g := by
  rw [pay_apply, hb]
  unfold flat
  congr 1
  refine Finset.sum_congr rfl fun k _ => ?_
  rw [ha k, hw k]

/-- WHAT POINT `t` WRITES BACK is block `t` of the flat layer. -/
theorem flushed_eq (c : Dev nD) (t : Fin cfg0.N) :
    (dats m 0 c).flushed 3 t = ((cfg0.win 3).blk t).view.read (Elt Ideal) (flatOf m c) := by
  show (cfg0.win 3).cut (grid0.coords t) ((dats m 0 c).after 3 t) = _
  rw [after0_3]
  unfold out0_3
  rw [View.canon_unit_zero hz]
  simp only [View.ld_unit_zero (S := S512x4096) hz, View.ld_unit_zero (S := S1024x4096) hz, View.ld_unit_zero (S := S1x1024) hz]
  funext j
  show k0_pay1 (F := Ideal) (iblk m c 0 t) (iblk m c 1 t) (iblk m c 2 t) j = flatOf m c (((cfg0.win 3).blk t).view.emb j)
  refine entry_eq (m ((c : Thread nD τ).loc main_arg0)) (m ((c : Thread nD τ).loc main_arg1)) (m ((c : Thread nD τ).loc main_arg2)) (m ((c : Thread nD τ).loc main_arg3)) (m ((c : Thread nD τ).loc main_arg4))
    (iblk m c 0 t) (iblk m c 1 t) (iblk m c 2 t) j (((cfg0.win 3).blk t).view.emb j) (fun k => ?_) (fun k => ?_) ?_
  · refine ablk_apply m c t (ix2 (j 0) k) _ ?_ ?_
    · show win0_3.index t (0 : Fin 2) * 512 + 1 * (j 0).val = win0_3.index t (0 : Fin 2) * 512 + (j 0).val; omega
    · rfl
  · refine wblk_apply m c t (ix2 (j 1) k) _ ?_ ?_
    · show win0_3.index t (1 : Fin 2) * 1024 + 1 * (j 1).val = win0_3.index t (1 : Fin 2) * 1024 + (j 1).val; omega
    · rfl
  · refine bblk_apply m c t (ix2 (0 : Fin 1) (j 1)) _ ?_
    show win0_3.index t (1 : Fin 2) * 1024 + 1 * (j 1).val = win0_3.index t (1 : Fin 2) * 1024 + (j 1).val; omega

/-! ## The blocks tile the array -/

/-- An entry of the array is in point `t`'s block iff each coordinate is in the block's range on its axis. -/
theorem mem_blk (t : Fin cfg0.N) (i : S8192x16384.Idx) :
    i ∈ ((cfg0.win 3).blk t).view.set ↔ ∀ a : Fin 2, win0_3.index t a * S512x1024.size a ≤ (i a).val ∧ (i a).val < win0_3.index t a * S512x1024.size a + S512x1024.size a := by
  show i ∈ ((View.whole main_v14).slice (win0_3.rect t)).set ↔ _
  rw [View.set_slice_whole, Rect.mem_set_unit]
  exact Iff.rfl

/-- Every entry is in the block of the point at (row / 512, column / 1024). -/
theorem cover (i : S8192x16384.Idx) : ∃ t : Fin cfg0.N, (cfg0.win 3).flush t = true ∧ i ∈ ((cfg0.win 3).blk t).view.set := by
  have hi0 : (i 0).val < 8192 := (i 0).isLt
  have hi1 : (i 1).val < 16384 := (i 1).isLt
  obtain ⟨t, ht⟩ := idx_onto ⟨(i 0).val / 512, by omega⟩ ⟨(i 1).val / 1024, by omega⟩
  have q0 : win0_3.index t (0 : Fin 2) = (i 0).val / 512 := congrFun ht 0
  have q1 : win0_3.index t (1 : Fin 2) = (i 1).val / 1024 := congrFun ht 1
  refine ⟨t, flush0_3 t, ?_⟩
  rw [mem_blk]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1024 ≤ (i 1).val ∧ (i 1).val < win0_3.index t (1 : Fin 2) * 1024 + 1024; omega

/-- THE RESULT ARRAY of the region after the run is the flat layer. -/
theorem final (c : Dev nD) : (dats m 0 c).arrAt 3 cfg0.N = flatOf m c :=
  (dats m 0 c).arrAt_eq_of_cover 3 (flatOf m c) (fun t _ => flushed_eq m c t) cover

/-! ## The closing reshape, and the run -/

/-- The program's result: the flat layer laid out as [4, 2048, 16384] is the layer. -/
theorem tail_eq (c : Dev nD) : Pipeline.afterTail₀ cfgs (dats m) 0 (V0 m) [hostOps1] c main_v15 = outOf m c := by
  unfold Pipeline.afterTail₀
  show StableHlo.after hostOps1 _ (Proc.devRef .tc main_v15) = _
  after_results
  funext i
  have hi0 : (i 0).val < 4 := (i 0).isLt
  have hi1 : (i 1).val < 2048 := (i 1).isLt
  have harr : Pipeline.withArrays spec0 c (V0 m c) (fun w => (dats m 0 c).arrAt w cfg0.N) (Proc.devRef .tc (Pipeline.arrRef spec0 3)) = flatOf m c :=
    (Pipeline.withArrays_arr spec0 launch0.win.arr_inj c _ _ 3).trans (final m c)
  show shapeCast S4x2048x16384 (Pipeline.withArrays spec0 c (V0 m c) (fun w => (dats m 0 c).arrAt w cfg0.N) (Proc.devRef .tc (Pipeline.arrRef spec0 3)))
    shapeCasts_S8192x16384_S4x2048x16384 i = _
  rw [harr]
  refine (shapeCast_apply (flatOf m c) shapeCasts_S8192x16384_S4x2048x16384 i
    (ix2 ⟨(i 0).val * 2048 + (i 1).val, by omega⟩ (i 2)) ?_).trans ?_
  · rewrite [Shape.rowMajor_val_two, Shape.rowMajor_val_three]
    rfl
  · exact flat_eq_out _ _ _ _ _ i _ rfl rfl

/-- THE RUN, read: the result at the layer of the arguments, the arguments unchanged. -/
theorem run : θ_run defs (onTc (τ := τ) (main (F := Ideal))) ⟨m, fun _ => 0, ρ⟩ (fun r => ∀ c : Dev nD,
      r.2.mem ((c.tc : Thread nD τ).loc main_v15) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨
      ((h c).2 main_v15 (Pipeline.mem_restRefs_of main_v15 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.ArrayValue

end
-- ==== Proof.lean ====
/-
  A linear layer over a blockwise-quantised weight: out[b, s, o] = (Σ_k x[b, s, k] · w[o, k]) + bias[o] with
  w[o, k] = code[q[o, k]] · absmax[o], the index word q[o, k] read as jnp reads an index (a negative one counts
  from the end of the 256-entry codebook; the start index is clamped into it).

  Both programs compute exactly this function of the argument arrays (`QuantLinear.out`).  The kernel flattens
  the activations to 8192 rows, dequantises the weight on the host, and runs a 16 × 16 grid whose point (a, b)
  forms rows 512a … of the activations against weight rows 1024b …, adds the bias columns 1024b …, and writes
  block (a, b) of the [8192, 16384] product; the blocks tile the product and a reshape restores the batch axes
  (`ArrayValue.run`).  The reference dequantises over the flattened index array and contracts the last axes in
  one product (`RefValue.result_eq`).  Over the extended reals the narrowing to bf16 is the identity, the two
  gathers read the same codebook entry, and the two contractions are the same sum over the 4096 columns in the
  same order, so no law of arithmetic is used and the inputs' finiteness is not needed.
-/
import proofs.«133222_j14293651161610_1_alg».proof.Defs
import proofs.«133222_j14293651161610_1_alg».proof.Proof.Gen.Kernel
import proofs.«133222_j14293651161610_1_alg».proof.Proof.Gen.Kernel.Skeleton
import proofs.«133222_j14293651161610_1_alg».proof.Proof.Gen.Kernel.Launch
import proofs.«133222_j14293651161610_1_alg».proof.Proof.Gen.Kernel.Points
import proofs.«133222_j14293651161610_1_alg».proof.Proof.Gen.Kernel.Frame
import proofs.«133222_j14293651161610_1_alg».proof.Proof.Gen.KernelIdeal
import proofs.«133222_j14293651161610_1_alg».proof.Proof.Gen.KernelIdeal.Skeleton
import proofs.«133222_j14293651161610_1_alg».proof.Proof.Gen.KernelIdeal.Launch
import proofs.«133222_j14293651161610_1_alg».proof.Proof.Gen.KernelIdeal.Points
import proofs.«133222_j14293651161610_1_alg».proof.Proof.Gen.KernelIdeal.Frame
import proofs.«133222_j14293651161610_1_alg».proof.Proof.Gen.ReferenceIdeal
import proofs.«133222_j14293651161610_1_alg».proof.Proof.Gen.ReferenceIdeal.Run
import proofs.«133222_j14293651161610_1_alg».proof.Proof.Gen.ReferenceIdeal.Read
import proofs.«133222_j14293651161610_1_alg».proof.Proof.Gen.Pre_finite_inputs
import proofs.«133222_j14293651161610_1_alg».proof.Proof.QuantLinear
import proofs.«133222_j14293651161610_1_alg».proof.Proof.RefValue
import proofs.«133222_j14293651161610_1_alg».proof.Proof.KernelHost
import proofs.«133222_j14293651161610_1_alg».proof.Proof.KernelBody
import proofs.«133222_j14293651161610_1_alg».proof.Proof.KernelArray
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Gen.frame m ρ

/-- The idealised kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealisation rewrote nothing. -/
theorem preserves : Cert.preserves_Kernel_KernelIdeal := trivial

/-- From memories agreeing on the arguments both programs end with the layer `QuantLinear.out` of them. -/
theorem algebraic : Cert.algebraic_KernelIdeal_ReferenceIdeal := by
  intro m ρ m' ρ' _ hagree
  refine ⟨fun c => Cert.KernelIdeal.ArrayValue.outOf m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v15_eq, Cert.ReferenceIdeal.RefValue.result_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
